-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S512x10000 : Shape := ⟨2, ![512, 10000]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S512x10000, .f32⟩
  | .local _ .vmem, ⟨2, _⟩ => ⟨S512x10000, .f32⟩
  | .local _ .vmem, ⟨3, _⟩ => ⟨S128x128, .f32⟩
  | .local _ .vmem, ⟨4, _⟩ => ⟨S512x128, .f32⟩
  | .local _ .vmem, ⟨5, _⟩ => ⟨S512x128, .f32⟩
  | .local _ .vmem, ⟨6, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S512x10000_S512x10000_0_0 : ∀ a, (![0, 0] : Fin 2 → Nat) a + S512x10000.size a ≤ S512x10000.size a
  h_S512x10000 : 0 < S512x10000.numel
  inb_S512x128_S512x128_0_0 : ∀ a, (![0, 0] : Fin 2 → Nat) a + S512x128.size a ≤ S512x128.size a
  h_S512x128 : 0 < S512x128.numel
  dot_S10000x128_S128x128_S10000x128_1_0_0_1_n_n_wf : DotDims.WF S10000x128 S128x128 S10000x128 [1] [0] [0] [1] [] []
  dot_S512x10000_S10000x128_S512x128_1_0_0_1_n_n_wf : DotDims.WF S512x10000 S10000x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x10000.size a < S10000x10000.size a
  hwx0_1 : ∀ i : grid0.Coords, EltTy.bits .f32 = 32 ∨ (Rect.unit (s := S10000x10000) (fun a => cc0_transform_1 i a * S512x10000.size a) (fun a => (Pipeline.Clip.of (cc0_transform_1 i a) (S512x10000.size a) (S10000x10000.size a)).extent (S512x10000.size a)) fun a => Pipeline.Clip.inb (Pipeline.Clip.ok_of (hstart0_1 i a))).WholeWords (EltTy.packing .f32)
  hwxs0_1 : ∀ i : grid0.Coords, EltTy.bits .f32 = 32 ∨ (Rect.unit (s := S512x10000) (fun _ => 0) (fun a => (Pipeline.Clip.of (cc0_transform_1 i a) (S512x10000.size a) (S10000x10000.size a)).extent (S512x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x128.size a < S10000x128.size a
  hwx0_3 : ∀ i : grid0.Coords, EltTy.bits .f32 = 32 ∨ (Rect.unit (s := S10000x128) (fun a => cc0_transform_3 i a * S512x128.size a) (fun a => (Pipeline.Clip.of (cc0_transform_3 i a) (S512x128.size a) (S10000x128.size a)).extent (S512x128.size a)) fun a => Pipeline.Clip.inb (Pipeline.Clip.ok_of (hstart0_3 i a))).WholeWords (EltTy.packing .f32)
  hwxs0_3 : ∀ i : grid0.Coords, EltTy.bits .f32 = 32 ∨ (Rect.unit (s := S512x128) (fun _ => 0) (fun a => (Pipeline.Clip.of (cc0_transform_3 i a) (S512x128.size a) (S10000x128.size a)).extent (S512x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S512x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyK.lean ====
/-
  The kernel body of the kernel as printed (the word-level program), as two Hoare triples over arbitrary whole staging memrefs and
  any float instance. The body has one branch, on the first grid coordinate being zero. At the first grid point
  it multiplies the node features (10000 × 128) by the weights (128 × 128), narrows the product to bf16 and stores it
  whole into the scratch; at every point it then loads the current 512 × 10000 row block of the adjacency, narrows it,
  multiplies it by what the scratch holds, takes the maximum with zero and stores the 512 × 128 result whole into the
  result's staging buffer. Every access is the whole buffer at offset zero, so a load reads the contents and a store
  leaves its payload; the payloads are the two pure terms `k0_pay1` (the projection) and `k0_pay2` (a row block of the
  result). Nothing here depends on what the buffers hold: the triples are stated for any contents.
-/
import proofs.«137040_g2765958939316_cont_sun_m_1038_7_alg».proof.Proof.Gen.Kernel.Frame
import proofs.«137040_g2765958939316_cont_sun_m_1038_7_alg».proof.Proof.Gen.Kernel.Skeleton
import proofs.«137040_g2765958939316_cont_sun_m_1038_7_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch, over the grid coordinates: the first coordinate is zero. -/
abbrev cond0 (i : grid0.Coords) : Prop := (Scalar.cmpi .ne (Scalar.extui (Scalar.cmpi .eq (BitVec.ofNat 32 (i 0).val) 0#32)) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

set_option maxHeartbeats 1000000 in
/-- A point after the first: the projection scratch is only read. The row block's buffer and the scratch are
    left as found; the result's buffer ends holding the block's product with the scratch, clamped below at zero. -/
theorem run_later (c : Dev nD) (i : grid0.Coords)
    (arg1 : Memref sig .tc .vmem S10000x128 .f32) (harg1 : arg1.IsWhole) (arg2 : Memref sig .tc .vmem S512x10000 .f32) (harg2 : arg2.IsWhole)
    (arg3 : Memref sig .tc .vmem S128x128 .f32) (harg3 : arg3.IsWhole) (arg4 : Memref sig .tc .vmem S512x128 .f32) (harg4 : arg4.IsWhole)
    (arg5 : Memref sig .tc .vmem S10000x128 .bf16) (harg5 : arg5.IsWhole) (hc : ¬cond0 i)
    (x1 : Vec F S512x10000 .f32) (xs : Vec F S10000x128 .bf16) (E : Set ℕ) (K : PUnit → sProp 𝕄) :
    iprop(owns (c : Thread nD τ) arg2 fullShare x1 ∗ (∃ d, owns (c : Thread nD τ) arg4 fullShare d) ∗ owns (c : Thread nD τ) arg5 fullShare xs
        ∗ (iprop(owns (c : Thread nD τ) arg2 fullShare x1 ∗ owns (c : Thread nD τ) arg4 fullShare (k0_pay2 x1 xs) ∗ owns (c : Thread nD τ) arg5 fullShare xs) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f1, %hf1, H1⟩, ⟨%d3, %f3, -, H3⟩, ⟨%f5, %hf5, H5⟩, Hk⟩
  obtain rfl := harg2.eq_unread hf1; obtain rfl := harg5.eq_unread hf5
  sl_exec (disch := exact hc)
  sl_step
  iapply Hk
  isplitl [H1]
  · iexists _; isplitr; · ipureintro; exact hf1
    iexact H1
  isplitl [H3]
  · iexists _; isplitr
    swap; · iexact H3
    ipureintro
    rw [View.read_writes_eq_canon _ _ _ (fun y => ⟨_, List.mem_singleton_self _, View.mem_set_unit_zero hz2 inb_S512x128_S512x128_0_0 y⟩), View.canon_unit_zero hz2]
    simp only [View.readAt_eq_ld, hf1, hf5, View.ld_unit_zero (S := S512x10000) hz2, View.ld_unit_zero (S := S10000x128) hz2]
  · iexists _; isplitr; · ipureintro; exact hf5
    iexact H5

set_option maxHeartbeats 1000000 in
/-- The first point: the projection of the node features by the weights is stored into the scratch, whatever it
    held, then read back. The inputs' buffers are left as found; the scratch ends holding the projection and the
    result's buffer the row block's product with it, clamped below at zero. -/
theorem run_first (c : Dev nD) (i : grid0.Coords)
    (arg1 : Memref sig .tc .vmem S10000x128 .f32) (harg1 : arg1.IsWhole) (arg2 : Memref sig .tc .vmem S512x10000 .f32) (harg2 : arg2.IsWhole)
    (arg3 : Memref sig .tc .vmem S128x128 .f32) (harg3 : arg3.IsWhole) (arg4 : Memref sig .tc .vmem S512x128 .f32) (harg4 : arg4.IsWhole)
    (arg5 : Memref sig .tc .vmem S10000x128 .bf16) (harg5 : arg5.IsWhole) (hc : cond0 i)
    (x0 : Vec F S10000x128 .f32) (x1 : Vec F S512x10000 .f32) (x2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x1 (k0_pay1 x0 x2)) ∗ owns (c : Thread nD τ) arg5 fullShare (k0_pay1 x0 x2)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, ⟨%d5, %f5, -, H5⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (fun y => ⟨_, List.mem_singleton_self _, View.mem_set_unit_zero hz2 inb_S512x128_S512x128_0_0 y⟩), View.canon_unit_zero hz2]
    simp only [View.readAt_eq_ld, hf0, hf1, hf2, View.readCov_unit_zero (S := S10000x128) _ hz2, View.ld_unit_zero (S := S512x10000) hz2,
      View.ld_unit_zero (S := S10000x128) hz2, View.ld_unit_zero (S := S128x128) hz2]
  · iexists _; isplitr
    swap; · iexact H5
    ipureintro
    sl_unfold_words
    rw [View.read_writes_eq_canon _ _ _ (fun y => ⟨_, List.mem_singleton_self _, View.mem_set_unit_zero hz2 inb_S10000x128_S10000x128_0_0 y⟩), View.canon_unit_zero hz2]
    simp only [View.readAt_eq_ld, hf0, hf2, View.ld_unit_zero (S := S10000x128) hz2, View.ld_unit_zero (S := S128x128) hz2]

/-! ## The staging memrefs at a grid point, and the region invariant with the scratch as a memref -/

/-- Each window's current staging memref at point `t`, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
/-- The projection scratch: a whole scoped buffer of the kernel's own. -/
abbrev scM : Memref sig .tc .vmem S10000x128 .bf16 := Memref.whole cc0_scratch0

/-- The region's invariant when nothing is said of the scratch: the scratch at some contents and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.FrameK.lean ====
/-
  The frame of the kernel as printed, at any float instance: every weakly fair execution of the program terminates,
  nothing faults, and the three argument arrays end as they were launched.

  At the word level the matrix unit is an opaque function of its whole operands, and at the last grid point the
  adjacency's row block overhangs the array by 240 rows that hold words nothing names; so what the body leaves in the
  result's staging buffer there cannot be named. The frame does not need it: the proof data say nothing of what any
  staging buffer holds (every window is forgotten), the scratch is held at some contents throughout, and the body's two
  triples apply to whatever the buffers hold. The inputs' arrays are never written, which is all the claim states.
-/
import proofs.«137040_g2765958939316_cont_sun_m_1038_7_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten: nothing the frame claims reads a staging buffer. -/
def forgetAll : Fin 4 → Bool := fun _ => true

/-- The proof data: the arrays as launched; no staging contents named; the scratch at some contents and the generator
    register at some state between points; nothing owed; full shares. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eqF (c : Dev nD) (w : Fin cfg0.W) : (datsF m 0 c).A w = V m c (Pipeline.arrRef spec0 w) := by
  dsimp only [datsF]

/-- What the body is called with at point `t`: the invariant, nothing owed, every staging buffer at some contents; -/
def preF (c : Dev nD) (t : Fin cfg0.N) : sProp 𝕄 :=
  iprop((datsF m 0 c).Φ t.castSucc ∗ (datsF m 0 c).owesAt () t.castSucc
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X))

/-- and what it hands back: the same. -/
def postF (c : Dev nD) (t : Fin cfg0.N) : sProp 𝕄 :=
  iprop((datsF m 0 c).Φ t.succ ∗ (datsF m 0 c).owesAt () t.succ
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X))

/-- The body at any point, from any contents to some contents: the first point by the triple that fills the scratch,
    a later one by the triple that only reads it. -/
theorem sound_forget (c : Dev nD) (t : Fin cfg0.N) :
    preF m c t ⊢ wp frame (wpE (defs₀ (F := F)) Variants.none c none) Set.univ (bodyAt0 t) (fun _ => postF m c t) := by
  unfold preF postF bodyAt0
  rw [show (datsF m 0 c).owesAt () t.succ = (datsF m 0 c).owesAt () t.castSucc from rfl,
    show (datsF m 0 c).Φ t.succ = Pipeline.ΦA spec0 c from rfl, show (datsF m 0 c).Φ t.castSucc = Pipeline.ΦA spec0 c from rfl, PhiA_eq]
  iintro ⟨⟨⟨%xs, HS⟩, Hg⟩, Ho, ⟨%X0, H0⟩, ⟨%X1, H1⟩, ⟨%X2, H2⟩, H3⟩
  by_cases h0 : t.val = 0
  · iapply (run_first c (grid0.coords t) (ms0 t) (hs0 t) (ms1 t) (hs1 t) (ms2 t) (hs2 t) (ms3 t) (hs3 t) scM (Memref.isWhole_whole _)
      ((hcond0 t).mpr h0) X0 X1 X2 Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hg]
    · isplitl [HS]
      · iexists _; iexact HS
      iexact Hg
    isplitl [Ho]; · iexact Ho
    isplitl [H0]; · iexists _; iexact H0
    isplitl [H1]; · iexists _; iexact H1
    isplitl [H2]; · iexists _; iexact H2
    iexists _; iexact H3
  · iapply (run_later c (grid0.coords t) (ms0 t) (hs0 t) (ms1 t) (hs1 t) (ms2 t) (hs2 t) (ms3 t) (hs3 t) scM (Memref.isWhole_whole _)
      (fun h => h0 ((hcond0 t).mp h)) X1 xs Set.univ _)
    isplitl [H1]; · iexact H1
    isplitl [H3]; · iexact H3
    isplitl [HS]; · iexact HS
    iintro ⟨H1, H3, HS⟩
    isplitl [HS Hg]
    · isplitl [HS]
      · iexists _; iexact HS
      iexact Hg
    isplitl [Ho]; · iexact Ho
    isplitl [H0]; · iexists _; iexact H0
    isplitl [H1]; · iexists _; iexact H1
    isplitl [H2]; · iexists _; iexact H2
    iexists _; iexact H3

/-- The library's body obligation with every window forgotten, at every point. -/
theorem body_forget (c : Dev nD) : BodyObligationLoose (datsF (F := F) m 0 c) (defs₀ (F := F)) Variants.none () Set.univ forgetAll := fun t => by
  rw [bigSep_W0, bigSep_W0]
  exact sound_forget m c t

set_option backward.isDefEq.respectTransparency.types false in
/-- Every weakly fair execution of the program terminates, and every final state has each input array of the pipeline
    at its launch contents; of the result array nothing is stated. -/
theorem run_forget : θ_run defs (onTc (τ := τ) (main (F := F))) (s₀ m ρ)
    (Pipeline.RDat.FramePost (cfgs 0) (fun c => (datsF m 0 c).toRForget forgetAll) (V m)) :=
  Pipeline.RDat.θ_run_frame cfgs (0 : Fin 1) launch0 defs₀ Variants.none (fun c => (datsF m 0 c).toRForget forgetAll) m ρ main
    (hbody := fun c => (body_forget m c).toRForget) (hshare := fun c => ((datsF m 0 c).toRForget forgetAll).share_full fun _ => rfl)
    (howed := fun _ _ => rfl) (V := V m) (hmain := hmain m Variants.none) (hA := A_eqF m) (hΦ := fun _ _ => rfl)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((A_eqF m c 0).trans (V_main_arg0 m c)),
      (Pipeline.RDat.FramePost.arr_in h c 1 rfl).trans ((A_eqF m c 1).trans (V_main_arg1 m c)),
      (Pipeline.RDat.FramePost.arr_in h c 2 rfl).trans ((A_eqF m c 2).trans (V_main_arg2 m c))⟩) (run_forget m ρ)

end Cert.Kernel.Hand

end
-- ==== Proof.BodyKI.lean ====
/-
  The kernel body of the idealized kernel, as two Hoare triples over arbitrary whole staging memrefs and
  any float instance. The body has one branch, on the first grid coordinate being zero. At the first grid point
  it multiplies the node features (10000 × 128) by the weights (128 × 128), narrows the product to bf16 and stores it
  whole into the scratch; at every point it then loads the current 512 × 10000 row block of the adjacency, narrows it,
  multiplies it by what the scratch holds, takes the maximum with zero and stores the 512 × 128 result whole into the
  result's staging buffer. Every access is the whole buffer at offset zero, so a load reads the contents and a store
  leaves its payload; the payloads are the two pure terms `k0_pay1` (the projection) and `k0_pay2` (a row block of the
  result). Nothing here depends on what the buffers hold: the triples are stated for any contents.
-/
import proofs.«137040_g2765958939316_cont_sun_m_1038_7_alg».proof.Proof.Gen.KernelIdeal.Frame
import proofs.«137040_g2765958939316_cont_sun_m_1038_7_alg».proof.Proof.Gen.KernelIdeal.Skeleton
import proofs.«137040_g2765958939316_cont_sun_m_1038_7_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch, over the grid coordinates: the first coordinate is zero. -/
abbrev cond0 (i : grid0.Coords) : Prop := (Scalar.cmpi .ne (Scalar.extui (Scalar.cmpi .eq (BitVec.ofNat 32 (i 0).val) 0#32)) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

set_option maxHeartbeats 1000000 in
/-- A point after the first: the projection scratch is only read. The row block's buffer and the scratch are
    left as found; the result's buffer ends holding the block's product with the scratch, clamped below at zero. -/
theorem run_later (c : Dev nD) (i : grid0.Coords)
    (arg1 : Memref sig .tc .vmem S10000x128 .f32) (harg1 : arg1.IsWhole) (arg2 : Memref sig .tc .vmem S512x10000 .f32) (harg2 : arg2.IsWhole)
    (arg3 : Memref sig .tc .vmem S128x128 .f32) (harg3 : arg3.IsWhole) (arg4 : Memref sig .tc .vmem S512x128 .f32) (harg4 : arg4.IsWhole)
    (arg5 : Memref sig .tc .vmem S10000x128 .bf16) (harg5 : arg5.IsWhole) (hc : ¬cond0 i)
    (x1 : Vec F S512x10000 .f32) (xs : Vec F S10000x128 .bf16) (E : Set ℕ) (K : PUnit → sProp 𝕄) :
    iprop(owns (c : Thread nD τ) arg2 fullShare x1 ∗ (∃ d, owns (c : Thread nD τ) arg4 fullShare d) ∗ owns (c : Thread nD τ) arg5 fullShare xs
        ∗ (iprop(owns (c : Thread nD τ) arg2 fullShare x1 ∗ owns (c : Thread nD τ) arg4 fullShare (k0_pay2 x1 xs) ∗ owns (c : Thread nD τ) arg5 fullShare xs) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f1, %hf1, H1⟩, ⟨%d3, %f3, -, H3⟩, ⟨%f5, %hf5, H5⟩, Hk⟩
  obtain rfl := harg2.eq_unread hf1; obtain rfl := harg5.eq_unread hf5
  sl_exec (disch := exact hc)
  sl_step
  iapply Hk
  isplitl [H1]
  · iexists _; isplitr; · ipureintro; exact hf1
    iexact H1
  isplitl [H3]
  · iexists _; isplitr
    swap; · iexact H3
    ipureintro
    rw [View.read_writes_eq_canon _ _ _ (fun y => ⟨_, List.mem_singleton_self _, View.mem_set_unit_zero hz2 inb_S512x128_S512x128_0_0 y⟩), View.canon_unit_zero hz2]
    simp only [View.readAt_eq_ld, hf1, hf5, View.ld_unit_zero (S := S512x10000) hz2, View.ld_unit_zero (S := S10000x128) hz2]
  · iexists _; isplitr; · ipureintro; exact hf5
    iexact H5

set_option maxHeartbeats 1000000 in
/-- The first point: the projection of the node features by the weights is stored into the scratch, whatever it
    held, then read back. The inputs' buffers are left as found; the scratch ends holding the projection and the
    result's buffer the row block's product with it, clamped below at zero. -/
theorem run_first (c : Dev nD) (i : grid0.Coords)
    (arg1 : Memref sig .tc .vmem S10000x128 .f32) (harg1 : arg1.IsWhole) (arg2 : Memref sig .tc .vmem S512x10000 .f32) (harg2 : arg2.IsWhole)
    (arg3 : Memref sig .tc .vmem S128x128 .f32) (harg3 : arg3.IsWhole) (arg4 : Memref sig .tc .vmem S512x128 .f32) (harg4 : arg4.IsWhole)
    (arg5 : Memref sig .tc .vmem S10000x128 .bf16) (harg5 : arg5.IsWhole) (hc : cond0 i)
    (x0 : Vec F S10000x128 .f32) (x1 : Vec F S512x10000 .f32) (x2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x1 (k0_pay1 x0 x2)) ∗ owns (c : Thread nD τ) arg5 fullShare (k0_pay1 x0 x2)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, ⟨%d5, %f5, -, H5⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (fun y => ⟨_, List.mem_singleton_self _, View.mem_set_unit_zero hz2 inb_S512x128_S512x128_0_0 y⟩), View.canon_unit_zero hz2]
    simp only [View.readAt_eq_ld, hf0, hf1, hf2, View.readCov_unit_zero (S := S10000x128) _ hz2, View.ld_unit_zero (S := S512x10000) hz2,
      View.ld_unit_zero (S := S10000x128) hz2, View.ld_unit_zero (S := S128x128) hz2]
  · iexists _; isplitr
    swap; · iexact H5
    ipureintro
    sl_unfold_words
    rw [View.read_writes_eq_canon _ _ _ (fun y => ⟨_, List.mem_singleton_self _, View.mem_set_unit_zero hz2 inb_S10000x128_S10000x128_0_0 y⟩), View.canon_unit_zero hz2]
    simp only [View.readAt_eq_ld, hf0, hf2, View.ld_unit_zero (S := S10000x128) hz2, View.ld_unit_zero (S := S128x128) hz2]

/-! ## The staging memrefs at a grid point, and the region invariant with the scratch as a memref -/

/-- Each window's current staging memref at point `t`, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
/-- The projection scratch: a whole scoped buffer of the kernel's own. -/
abbrev scM : Memref sig .tc .vmem S10000x128 .bf16 := Memref.whole cc0_scratch0

/-- The region's invariant when nothing is said of the scratch: the scratch at some contents and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.BlockReads.lean ====
/-
  Where each window's block sits in its array, for the idealized kernel's one pipeline. The node features and the
  weights are staged whole: their block at every point is the array. The adjacency is staged in blocks of 512 rows
  and all 10000 columns, block `t` holding rows `512 t …`; the result likewise in blocks of 512 rows and all 128
  columns. 10000 is not a multiple of 512: the last of the 20 blocks has 272 rows inside the array, and its transfers are
  cut there, the same cut for the adjacency's block and the result's.
-/
import proofs.«137040_g2765958939316_cont_sun_m_1038_7_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The block indices of the four windows at a grid point: the two whole windows sit at the origin, the adjacency's
    and the result's at row block `t`. -/
theorem idx_facts : ∀ t : Fin cfg0.N,
    win0_0.index t 0 = 0 ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 :=
  (by decide +kernel : ∀ t : Fin grid0.N,
    win0_0.index t 0 = 0 ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0)

/-- How many rows and columns the transfers of the two cut windows move at a grid point: 512 rows, or what is left
    of the 10000 below row `512 t`; the same for both windows; every column. -/
theorem xsize_facts : ∀ t : Fin cfg0.N,
    win0_3.xsize (grid0.coords t) 0 = min 512 (10000 - 512 * t.val) ∧ win0_1.xsize (grid0.coords t) 0 = win0_3.xsize (grid0.coords t) 0
    ∧ win0_1.xsize (grid0.coords t) 1 = 10000 ∧ win0_3.xsize (grid0.coords t) 1 = 128 :=
  (by decide +kernel : ∀ t : Fin grid0.N,
    win0_3.xsize (grid0.coords t) 0 = min 512 (10000 - 512 * t.val) ∧ win0_1.xsize (grid0.coords t) 0 = win0_3.xsize (grid0.coords t) 0
    ∧ win0_1.xsize (grid0.coords t) 1 = 10000 ∧ win0_3.xsize (grid0.coords t) 1 = 128)

/-- The node features' block at any point is the whole array. -/
theorem iblk0_eq (c : Dev nD) (t : Fin cfg0.N) :
    (iblk m c 0 t : Vec F S10000x128 .f32) = (V m c main_arg0 : S10000x128.Idx → Elt F .f32) := by
  funext x
  unfold iblk
  rw [View.read_apply]
  show V m c main_arg0 _ = V m c main_arg0 _
  congr 1
  funext a
  apply Fin.ext
  match a with
  | ⟨0, _⟩ => show win0_0.index t 0 * 10000 + 1 * (x 0).val = (x 0).val; rw [(idx_facts t).1]; omega
  | ⟨1, _⟩ => show win0_0.index t 1 * 128 + 1 * (x 1).val = (x 1).val; rw [(idx_facts t).2.1]; omega

/-- The weights' block at any point is the whole array. -/
theorem iblk2_eq (c : Dev nD) (t : Fin cfg0.N) :
    (iblk m c 2 t : Vec F S128x128 .f32) = (V m c main_arg2 : S128x128.Idx → Elt F .f32) := by
  funext x
  unfold iblk
  rw [View.read_apply]
  show V m c main_arg2 _ = V m c main_arg2 _
  congr 1
  funext a
  apply Fin.ext
  match a with
  | ⟨0, _⟩ => show win0_2.index t 0 * 128 + 1 * (x 0).val = (x 0).val; rw [(idx_facts t).2.2.2.2.1]; omega
  | ⟨1, _⟩ => show win0_2.index t 1 * 128 + 1 * (x 1).val = (x 1).val; rw [(idx_facts t).2.2.2.2.2.1]; omega

/-- Entry `(r, k)` of the adjacency's block at point `t` (its part inside the array) is entry `(512 t + r, k)` of the
    adjacency. -/
theorem iblk1_apply (c : Dev nD) (t : Fin cfg0.N) (y : (win0_1.xblock (grid0.coords t)).Idx) (k : S10000x10000.Idx)
    (hk0 : (k 0).val = 512 * t.val + (y 0).val) (hk1 : (k 1).val = (y 1).val) :
    iblk m c 1 t y = (V m c main_arg1 : S10000x10000.Idx → Elt F .f32) k := by
  unfold iblk
  rw [View.read_apply]
  show V m c main_arg1 _ = V m c main_arg1 _
  congr 1
  funext a
  apply Fin.ext
  match a with
  | ⟨0, _⟩ => show win0_1.index t 0 * 512 + 1 * (y 0).val = (k 0).val; rw [(idx_facts t).2.2.1, hk0]; omega
  | ⟨1, _⟩ => show win0_1.index t 1 * 10000 + 1 * (y 1).val = (k 1).val; rw [(idx_facts t).2.2.2.1, hk1]; omega

/-- Entry `(r, j)` of the result's block at point `t` (its part inside the array), read off any contents `g` of the
    result array, is entry `(512 t + r, j)` of `g`. -/
theorem oblk_apply (c : Dev nD) (t : Fin cfg0.N) (g : Buf (Elt F) ((c : Thread nD τ).loc main_v0))
    (y : (win0_3.xblock (grid0.coords t)).Idx) (i : S10000x128.Idx)
    (h0 : (i 0).val = 512 * t.val + (y 0).val) (h1 : (i 1).val = (y 1).val) :
    (win0_3.blk t).view.read (Elt F) g y = (g : S10000x128.Idx → Elt F .f32) i := by
  rw [View.read_apply]
  show (g : S10000x128.Idx → Elt F .f32) _ = g _
  congr 1
  funext a
  apply Fin.ext
  match a with
  | ⟨0, _⟩ => show win0_3.index t 0 * 512 + 1 * (y 0).val = (i 0).val; rw [(idx_facts t).2.2.2.2.2.2.1, h0]; omega
  | ⟨1, _⟩ => show win0_3.index t 1 * 128 + 1 * (y 1).val = (i 1).val; rw [(idx_facts t).2.2.2.2.2.2.2, h1]; omega

end Cert.KernelIdeal.Hand

end
-- ==== Proof.RowMath.lean ====
/-
  The arithmetic that joins the kernel to its reference over the extended reals, entry by entry. Both compute
  max(adj · (x · W), 0) with the same grouping of the two products; the kernel forms x · W once (a matrix product into
  a zero accumulator, a narrowing that is the identity on extended reals) and then, per block of 512 adjacency rows, the
  product of the block with it, clamped below at zero. A matrix product into zero and the host's contraction are the
  same finite sum over the contracted axis, so a block's entry is the reference's entry at the same adjacency row.
-/
import proofs.«137040_g2765958939316_cont_sun_m_1038_7_alg».proof.Proof.Gen.KernelIdeal.Skeleton
import proofs.«137040_g2765958939316_cont_sun_m_1038_7_alg».proof.Proof.Gen.ReferenceIdeal.Read
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.SL.Sem
open Cert.ReferenceIdeal.Read

/-- Row `r`, column `k` of a 512 × 10000 block. -/
abbrev blkIx (r : Fin 512) (k : Fin 10000) : Cert.KernelIdeal.S512x10000.Idx := fun a => match a with
  | ⟨0, _⟩ => ⟨r.val, r.isLt⟩
  | ⟨1, _⟩ => ⟨k.val, k.isLt⟩

/-- The projection the kernel stores is, entry by entry, the reference's product of the features with the weights: both are the same sum over the contracted axis. -/
theorem proj_eq (x : Vec Ideal Cert.KernelIdeal.S10000x128 .f32) (W : Vec Ideal Cert.KernelIdeal.S128x128 .f32)
    (i : Cert.KernelIdeal.S10000x128.Idx) :
    (Cert.KernelIdeal.Gen.k0_pay1 (F := Ideal) x W i : EReal) = val_main_v0 (F := Ideal) x W i := by
  unfold Cert.KernelIdeal.Gen.k0_pay1
  rw [shapeCast_self]
  refine (Ideal.matmul_constant_zero_apply (φ₁ := .f32) (φ₂ := .f32)
    Cert.KernelIdeal.dot_S10000x128_S128x128_S10000x128_1_0_0_1_n_n none x W i).trans ?_
  unfold val_main_v0
  simp only [Host.dotGeneral]
  exact (Ideal.dotGeneral_apply (φ₁ := .f32) (φ₂ := .f32)
    Cert.ReferenceIdeal.dot_S10000x128_S128x128_S10000x128_1_0_0_1_n_n none _ x W i).symm

/-- The left operand's row coordinate at an output index is the output's row. -/
theorem lhs_blk_0 (j : Cert.KernelIdeal.S512x128.Idx) (q : Cert.KernelIdeal.dot_S512x10000_S10000x128_S512x128_1_0_0_1_n_n.contr.Idx) :
    (Cert.KernelIdeal.dot_S512x10000_S10000x128_S512x128_1_0_0_1_n_n.lhsIdx j q 0).val = (j 0).val := by
  unfold DotDims.lhsIdx
  rw [dif_neg (show ¬(0 : Fin Cert.KernelIdeal.S512x10000.rank) ∈ Cert.KernelIdeal.dot_S512x10000_S10000x128_S512x128_1_0_0_1_n_n.lhsBatch by decide), dif_pos (show (0 : Fin Cert.KernelIdeal.S512x10000.rank) ∈ Cert.KernelIdeal.dot_S512x10000_S10000x128_S512x128_1_0_0_1_n_n.lhsNonContracting by decide)]
  rfl
/-- The left operand's column coordinate is the contraction index. -/
theorem lhs_blk_1 (j : Cert.KernelIdeal.S512x128.Idx) (q : Cert.KernelIdeal.dot_S512x10000_S10000x128_S512x128_1_0_0_1_n_n.contr.Idx) :
    (Cert.KernelIdeal.dot_S512x10000_S10000x128_S512x128_1_0_0_1_n_n.lhsIdx j q 1).val = (q ⟨0, by decide⟩).val :=
  Cert.KernelIdeal.dot_S512x10000_S10000x128_S512x128_1_0_0_1_n_n.lhsIdx_val_of_single rfl j q
/-- The right operand's row coordinate is the contraction index. -/
theorem rhs_blk_0 (j : Cert.KernelIdeal.S512x128.Idx) (q : Cert.KernelIdeal.dot_S512x10000_S10000x128_S512x128_1_0_0_1_n_n.contr.Idx) :
    (Cert.KernelIdeal.dot_S512x10000_S10000x128_S512x128_1_0_0_1_n_n.rhsIdx j q 0).val = (q ⟨0, by decide⟩).val :=
  Cert.KernelIdeal.dot_S512x10000_S10000x128_S512x128_1_0_0_1_n_n.rhsIdx_val_of_single rfl j q
/-- The right operand's column coordinate is the output's column. -/
theorem rhs_blk_1 (j : Cert.KernelIdeal.S512x128.Idx) (q : Cert.KernelIdeal.dot_S512x10000_S10000x128_S512x128_1_0_0_1_n_n.contr.Idx) :
    (Cert.KernelIdeal.dot_S512x10000_S10000x128_S512x128_1_0_0_1_n_n.rhsIdx j q 1).val = (j 1).val := by
  unfold DotDims.rhsIdx
  rw [dif_neg (show ¬(1 : Fin Cert.KernelIdeal.S10000x128.rank) ∈ Cert.KernelIdeal.dot_S512x10000_S10000x128_S512x128_1_0_0_1_n_n.rhsBatch by decide), dif_pos (show (1 : Fin Cert.KernelIdeal.S10000x128.rank) ∈ Cert.KernelIdeal.dot_S512x10000_S10000x128_S512x128_1_0_0_1_n_n.rhsNonContracting by decide)]
  rfl

/-- Row `k`, column of `j`, of the 10000 × 128 projection. -/
abbrev colIx (j : Cert.KernelIdeal.S512x128.Idx) (k : Fin 10000) : Cert.KernelIdeal.S10000x128.Idx := fun a => match a with
  | ⟨0, _⟩ => ⟨k.val, k.isLt⟩
  | ⟨1, _⟩ => ⟨(j 1).val, (j 1).isLt⟩

/-- A 512 × 10000 block times the 10000 × 128 projection into a zero accumulator, read at an entry: the sum over
    the 10000 contracted positions of the block's row entry times the projection's column entry. -/
theorem blk_matmul_apply (a : FVec Ideal Cert.KernelIdeal.S512x10000 .bf16) (b : FVec Ideal Cert.KernelIdeal.S10000x128 .bf16)
    (j : Cert.KernelIdeal.S512x128.Idx) :
    FloatOps.matmul Cert.KernelIdeal.dot_S512x10000_S10000x128_S512x128_1_0_0_1_n_n none a b (constant (F := Ideal) Cert.KernelIdeal.S512x128 .f32 0x00000000#32) j
      = ∑ k : Fin 10000, a (blkIx (j 0) k) * b (colIx j k) := by
  rw [Ideal.matmul_constant_zero_apply, ← Equiv.sum_comp (ValueIdx.contrEquiv1 Cert.KernelIdeal.dot_S512x10000_S10000x128_S512x128_1_0_0_1_n_n 10000 rfl rfl).symm]
  refine Finset.sum_congr rfl fun k _ => ?_
  have hk := ValueIdx.contrEquiv1_symm_val Cert.KernelIdeal.dot_S512x10000_S10000x128_S512x128_1_0_0_1_n_n 10000 rfl rfl k
  have el : Cert.KernelIdeal.dot_S512x10000_S10000x128_S512x128_1_0_0_1_n_n.lhsIdx j ((ValueIdx.contrEquiv1 Cert.KernelIdeal.dot_S512x10000_S10000x128_S512x128_1_0_0_1_n_n 10000 rfl rfl).symm k) = blkIx (j 0) k := funext fun a => Fin.ext (by
    match a with
    | ⟨0, _⟩ => exact lhs_blk_0 _ _
    | ⟨1, _⟩ => exact (lhs_blk_1 _ _).trans hk)
  have er : Cert.KernelIdeal.dot_S512x10000_S10000x128_S512x128_1_0_0_1_n_n.rhsIdx j ((ValueIdx.contrEquiv1 Cert.KernelIdeal.dot_S512x10000_S10000x128_S512x128_1_0_0_1_n_n 10000 rfl rfl).symm k) = colIx j k := funext fun a => Fin.ext (by
    match a with
    | ⟨0, _⟩ => exact (rhs_blk_0 _ _).trans hk
    | ⟨1, _⟩ => exact rhs_blk_1 _ _)
  rw [el, er]

/-- An entry of the kernel's block of relu(adj · projection) is the reference's entry at the same row of the whole
    adjacency and the same column, once the block's row is that adjacency row and the stored projection is the
    reference's: the two contractions agree term by term, and the clamp at zero is the same. -/
theorem row_eq (v3 : Vec Ideal Cert.KernelIdeal.S512x10000 .f32) (supp : Vec Ideal Cert.KernelIdeal.S10000x128 .bf16)
    (x : Vec Ideal Cert.KernelIdeal.S10000x128 .f32) (adj : Vec Ideal Cert.ReferenceIdeal.S10000x10000 .f32) (W : Vec Ideal Cert.KernelIdeal.S128x128 .f32)
    (hs : ∀ i, (supp i : EReal) = val_main_v0 (F := Ideal) x W i)
    (j : Cert.KernelIdeal.S512x128.Idx) (i : Cert.ReferenceIdeal.S10000x128.Idx) (h1 : (i 1).val = (j 1).val)
    (hrow : ∀ k : Fin 10000, (v3 (blkIx (j 0) k) : EReal) = adj (lidx_main_v1 i k)) :
    (Cert.KernelIdeal.Gen.k0_pay2 (F := Ideal) v3 supp j : EReal) = val_main_v2 (F := Ideal) x adj W i := by
  rw [val_main_v2_apply, val_main_v1_apply, val_main_call0_v0_apply, val_main_call0_cst_apply]
  unfold Cert.KernelIdeal.Gen.k0_pay2
  show FloatOps.maximumf (F := Ideal) (φ := .f32)
      (FloatOps.matmul Cert.KernelIdeal.dot_S512x10000_S10000x128_S512x128_1_0_0_1_n_n none
        (truncf (F := Ideal) .bf16 v3 Cert.KernelIdeal.Gen.bitsLt_bf16_f32) supp
        (constant (F := Ideal) Cert.KernelIdeal.S512x128 .f32 0x00000000#32) j)
      (FloatOps.ofBits .f32 0x00000000#32) = _
  refine congrArg (fun t => FloatOps.maximumf (F := Ideal) (φ := .f32) t (FloatOps.ofBits .f32 0x00000000#32)) ?_
  refine (blk_matmul_apply _ supp j).trans ?_
  refine Finset.sum_congr rfl fun k _ => ?_
  have ec : colIx j k = ridx_main_v1 i k := funext fun a => Fin.ext (by
    match a with
    | ⟨0, _⟩ => rfl
    | ⟨1, _⟩ => exact h1.symm)
  have hl : (truncf (F := Ideal) .bf16 v3 Cert.KernelIdeal.Gen.bitsLt_bf16_f32 (blkIx (j 0) k) : EReal) = adj (lidx_main_v1 i k) :=
    hrow k
  have hr : (supp (colIx j k) : EReal) = val_main_v0 (F := Ideal) x W (ridx_main_v1 i k) := by
    rw [hs, ec]
  exact congrArg₂ (· * ·) hl hr

end Cert.Bridge

end
-- ==== Proof.CutOut.lean ====
/-
  Over the extended reals, what the body leaves in the result's staging buffer at grid point `t` is, on the rows
  inside the array, block `t` of the reference's result max(adj · (x · W), 0) — whatever the adjacency's staging buffer
  holds on the rows past the array's end at the last point. Row `r` of a matrix product depends on row `r` of the left
  factor only, so the 240 unnamed rows of the last adjacency block reach only result rows that are never written back.
-/
import proofs.«137040_g2765958939316_cont_sun_m_1038_7_alg».proof.Proof.BlockReads
import proofs.«137040_g2765958939316_cont_sun_m_1038_7_alg».proof.Proof.RowMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The projection of the node features by the weights, as the kernel forms it. -/
abbrev proj (c : Dev nD) : FVec Ideal S10000x128 .bf16 :=
  k0_pay1 (F := Ideal) (V m c main_arg0 : S10000x128.Idx → Elt Ideal .f32) (V m c main_arg2 : S128x128.Idx → Elt Ideal .f32)

/-- THE SPECIFICATION: the reference's result as one function of the three argument arrays,
    max(adj · (x · W), 0) entry by entry. -/
abbrev spec (c : Dev nD) : Buf (Elt Ideal) ((c : Thread nD τ).loc main_v0) :=
  Cert.ReferenceIdeal.Read.val_main_v2 (F := Ideal) (V m c main_arg0 : S10000x128.Idx → Elt Ideal .f32)
    (V m c main_arg1 : S10000x10000.Idx → Elt Ideal .f32) (V m c main_arg2 : S128x128.Idx → Elt Ideal .f32)

/-- Where entry `y` of the result's block at point `t` (its part inside the array) sits in the result array:
    row `512 t + y₀`, column `y₁`. -/
abbrev arrIx (t : Fin cfg0.N) (y : (win0_3.xblock (grid0.coords t)).Idx) : S10000x128.Idx := fun a => match a with
  | ⟨0, _⟩ => ⟨512 * t.val + (y 0).val, by
      have h0 : (y 0).val < win0_3.xsize (grid0.coords t) 0 := (y 0).isLt
      rw [(xsize_facts t).1] at h0
      show 512 * t.val + (y 0).val < 10000
      omega⟩
  | ⟨1, _⟩ => ⟨(y 1).val, by
      have h1 : (y 1).val < win0_3.xsize (grid0.coords t) 1 := (y 1).isLt
      rw [(xsize_facts t).2.2.2] at h1
      exact h1⟩

/-- The rows inside the array of the body's result at point `t` — the product of the adjacency's staging buffer
    (block `t` on the rows inside the array, anything `d` past them) with the projection, clamped below at zero — are
    block `t` of the specification. -/
theorem cut_out (c : Dev nD) (t : Fin cfg0.N) (d : win0_1.block.Idx → Elt Ideal .f32) :
    win0_3.cut (grid0.coords t) (k0_pay2 (F := Ideal) (win0_1.fill (grid0.coords t) d (iblk m c 1 t)) (proj m c))
      = (win0_3.blk t).view.read (Elt Ideal) (spec m c) := by
  funext y
  rw [oblk_apply (F := Ideal) c t (spec m c) y (arrIx t y) rfl rfl]
  show k0_pay2 (F := Ideal) (win0_1.fill (grid0.coords t) d (iblk m c 1 t)) (proj m c) (win0_3.xinj (grid0.coords t) y) = _
  refine Cert.Bridge.row_eq _ (proj m c) _ _ _ (fun i' => Cert.Bridge.proj_eq _ _ i') (win0_3.xinj (grid0.coords t) y) (arrIx t y) rfl (fun k => ?_)
  have hmv : win0_1.moved (grid0.coords t) (Cert.Bridge.blkIx ((win0_3.xinj (grid0.coords t) y) 0) k) = true :=
    (win0_1.moved_iff _ _).mpr fun a => by
      match a with
      | ⟨0, _⟩ => show (y 0).val < win0_1.xsize (grid0.coords t) 0; rw [(xsize_facts t).2.1]; exact (y 0).isLt
      | ⟨1, _⟩ => show k.val < win0_1.xsize (grid0.coords t) 1; rw [(xsize_facts t).2.2.1]; exact k.isLt
  unfold Window.fill
  rw [dif_pos hmv]
  exact iblk1_apply m c t _ (Cert.ReferenceIdeal.Read.lidx_main_v1 (arrIx t y) k) rfl rfl

end Cert.KernelIdeal.Hand

end
-- ==== Proof.Cover.lean ====
/-
  The result array's rows are covered by the 20 row blocks of 512 rows, the last cut to the 272 rows that remain below
  row 9728: row `r` lies in block `r / 512`, at local row `r - 512 (r / 512)`, and every column lies in every block.
  Every block is written back at its grid point, so every entry of the result array is written back at some point.
-/
import proofs.«137040_g2765958939316_cont_sun_m_1038_7_alg».proof.Proof.BlockReads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Every entry `(r, j)` of the result array lies in the block written back at point `r / 512`: its row is
    `512 (r / 512) + (r mod 512)` with `r mod 512` below the block's row count `min 512 (10000 - 512 (r / 512))`,
    and its column is below 128. -/
theorem cover3 (i : S10000x128.Idx) : ∃ t : Fin cfg0.N, (cfg0.win 3).flush t = true ∧ i ∈ ((cfg0.win 3).blk t).view.set := by
  have h0 : (i 0 : Nat) < 10000 := (i 0).isLt
  have h1 : (i 1 : Nat) < 128 := (i 1).isLt
  have hN : cfg0.N = 20 := N_0
  obtain ⟨t, ht⟩ : ∃ t : Fin cfg0.N, t.val = (i 0).val / 512 := ⟨⟨(i 0).val / 512, by omega⟩, rfl⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * win0_3.size 0 ≤ (i 0 : Nat) ∧ (i 0 : Nat) < win0_3.index t 0 * win0_3.size 0 + win0_3.xsize (grid0.coords t) 0
    rw [(idx_facts t).2.2.2.2.2.2.1, (xsize_facts t).1, show win0_3.size 0 = 512 from rfl]
    omega
  | ⟨1, _⟩ =>
    show win0_3.index t 1 * win0_3.size 1 ≤ (i 1 : Nat) ∧ (i 1 : Nat) < win0_3.index t 1 * win0_3.size 1 + win0_3.xsize (grid0.coords t) 1
    rw [(idx_facts t).2.2.2.2.2.2.2, (xsize_facts t).2.2.2]
    omega

end Cert.KernelIdeal.Hand

end
-- ==== Proof.ValueKI.lean ====
/-
  The run of the idealized kernel over the extended reals, with every array after the run named: the three argument
  arrays end as launched and the result array ends holding the specification max(adj · (x · W), 0).

  The proof data: after the body at a point, the node features' and the weights' staging buffers hold those arrays; the
  adjacency's holds its row block on the rows inside the array; the result's holds, on the rows inside the array, the
  specification's block. Between points the scratch holds the projection x · W from the first point on (anything before
  it). The first point fills the scratch from the two whole inputs and every point multiplies its adjacency block by what
  the scratch holds; the rows past the array's end, which only the last block has, are neither named nor written back.
  The 20 row blocks cover the result array, so after the last write-back it is the specification.
-/
import proofs.«137040_g2765958939316_cont_sun_m_1038_7_alg».proof.Proof.CutOut
import proofs.«137040_g2765958939316_cont_sun_m_1038_7_alg».proof.Proof.Cover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

variable (ρ : Dev nD → PrngReg)

/-! ## The proof data -/

/-- The region invariant before point `n`: before the first point the scratch at anything; afterwards at the
    projection; the generator register at some state throughout. -/
def PhiS (c : Dev nD) : ℕ → sProp 𝕄
  | 0 => Pipeline.ΦA spec0 c
  | _ + 1 => iprop(iprop(owns (c : Thread nD τ) scM fullShare (proj m c)) ∗ (∃ r, prngReg c r))

/-- The zero word, as an extended real. -/
abbrev zeroWord : Elt Ideal .f32 := Scalar.ofBits (F := Ideal) .f32 0#32

/-- The proof data of the one pipeline on core `c`. Past the array's end the two cut windows' contents are not
    consulted; the filler there is the zero word. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => zeroWord) (iblk m c 1 t)
    | ⟨2, _⟩ => iblk m c 2 t
    | ⟨3, _⟩ => win0_3.fill (grid0.coords t) (fun _ => zeroWord) ((win0_3.blk t).view.read (Elt Ideal) (spec m c))
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => zeroWord) (iblk m c 1 t) := by dsimp only [dats]
theorem after2 (c : Dev nD) (t : Fin cfg0.N) : (dats m 0 c).after 2 t = iblk m c 2 t := by dsimp only [dats]
theorem after3 (c : Dev nD) (t : Fin cfg0.N) :
    (dats m 0 c).after 3 t = win0_3.fill (grid0.coords t) (fun _ => zeroWord) ((win0_3.blk t).view.read (Elt Ideal) (spec m c)) := by
  dsimp only [dats]

/-- What the body finds: the two whole inputs' buffers at their arrays' blocks, fetched at this point or not; -/
theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
/-- the adjacency's buffer just fetched: its block on the rows inside the array, `d` past them. -/
theorem before1 (c : Dev nD) (t : Fin cfg0.N) (d) :
    (dats m 0 c).before 1 t d = win0_1.fill (grid0.coords t) d (iblk m c 1 t) := by
  rw [Dat.before_fetched (dats m 0 c) 1 t (fetch0_1 t) d]
  unfold Dat.fetched Dat.blockOf iblk
  rw [A_eq]

theorem PhiS_succ (c : Dev nD) (n : ℕ) :
    PhiS m c (n + 1) = iprop(iprop(owns (c : Thread nD τ) scM fullShare (proj m c)) ∗ (∃ r, prngReg c r)) := rfl

/-- The projection is the same term of the two whole inputs' blocks at any point: those blocks are the arrays. -/
theorem proj_blocks (c : Dev nD) (t : Fin cfg0.N) :
    k0_pay1 (F := Ideal) (iblk m c 0 t) (iblk m c 2 t) = proj m c := by
  rw [iblk0_eq m c t, iblk2_eq m c t]

/-! ## The body obligation -/

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it hands back: the two whole inputs' buffers as named, the two cut windows' as named on the rows inside
    the array. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t)
    ∗ (∃ d, owns (c : Thread nD τ) (ms3 t) fullShare (win0_3.fill (grid0.coords t) d (win0_3.cut (grid0.coords t) ((dats m 0 c).after 3 t)))))

set_option maxHeartbeats 1000000 in
/-- The body at any point. The first point fills the scratch with the projection of the two whole inputs and
    multiplies; a later point finds the projection in the scratch. Either way the result's buffer ends, on the rows inside
    the array, at the specification's block (`cut_out`), and the adjacency's buffer is untouched. -/
theorem sound_ideal (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.succ = PhiS m c (t.val + 1) from rfl, PhiS_succ,
    show (dats m 0 c).Φ t.castSucc = PhiS m c t.val from rfl]
  rw [after0, after1, after2, after3, win0_1.cut_fill, win0_3.cut_fill]
  by_cases h0 : t.val = 0
  · rw [show PhiS m c t.val = Pipeline.ΦA spec0 c from by rw [h0]; rfl, PhiA_eq]
    iintro ⟨⟨⟨%ds, HS⟩, Hg⟩, Ho, ⟨%d0, H0⟩, ⟨%d1, H1⟩, ⟨%d2, H2⟩, ⟨%d3, H3⟩⟩
    iapply (run_first (F := Ideal) c (grid0.coords t) (ms0 t) (hs0 t) (ms1 t) (hs1 t) (ms2 t) (hs2 t) (ms3 t) (hs3 t) scM (Memref.isWhole_whole _)
      ((hcond0 t).mpr h0) (iblk m c 0 t) (win0_1.fill (grid0.coords t) d1 (iblk m c 1 t)) (iblk m c 2 t) Set.univ _)
    isplitl [H0]; · iexact H0
    isplitl [H1]; · iexact H1
    isplitl [H2]; · iexact H2
    isplitl [H3]; · iexists _; iexact H3
    isplitl [HS]; · iexists _; iexact HS
    rw [proj_blocks m c t]
    iintro ⟨H0, H1, H2, H3, HS⟩
    isplitl [HS Hg]
    · isplitl [HS]; · iexact HS
      iexact Hg
    isplitl [Ho]; · iexact Ho
    isplitl [H0]; · iexact H0
    isplitl [H1]; · iexists d1; iexact H1
    isplitl [H2]; · iexact H2
    iexists (k0_pay2 (F := Ideal) (win0_1.fill (grid0.coords t) d1 (iblk m c 1 t)) (proj m c))
    rw [← cut_out m c t d1, win0_3.fill_cut]
    iexact H3
  · rw [show PhiS m c t.val = iprop(iprop(owns (c : Thread nD τ) scM fullShare (proj m c)) ∗ (∃ r, prngReg c r)) from by
      obtain ⟨n, hn⟩ := Nat.exists_eq_succ_of_ne_zero h0; rw [hn]; rfl]
    iintro ⟨⟨HS, Hg⟩, Ho, ⟨%d0, H0⟩, ⟨%d1, H1⟩, ⟨%d2, H2⟩, ⟨%d3, H3⟩⟩
    iapply (run_later (F := Ideal) c (grid0.coords t) (ms0 t) (hs0 t) (ms1 t) (hs1 t) (ms2 t) (hs2 t) (ms3 t) (hs3 t) scM (Memref.isWhole_whole _)
      (fun h => h0 ((hcond0 t).mp h)) (win0_1.fill (grid0.coords t) d1 (iblk m c 1 t)) (proj m c) Set.univ _)
    isplitl [H1]; · iexact H1
    isplitl [H3]; · iexists _; iexact H3
    isplitl [HS]; · iexact HS
    iintro ⟨H1, H3, HS⟩
    isplitl [HS Hg]
    · isplitl [HS]; · iexact HS
      iexact Hg
    isplitl [Ho]; · iexact Ho
    isplitl [H0]; · iexact H0
    isplitl [H1]; · iexists d1; iexact H1
    isplitl [H2]; · iexact H2
    iexists (k0_pay2 (F := Ideal) (win0_1.fill (grid0.coords t) d1 (iblk m c 1 t)) (proj m c))
    rw [← cut_out m c t d1, win0_3.fill_cut]
    iexact H3

/-- The library's body obligation, at every point. -/
theorem body_obligation (c : Dev nD) : BodyObligationLoose (dats m 0 c) (defs₀ (F := Ideal)) Variants.none () Set.univ := fun t => by
  rw [bigSep_W0, bigSep_W0]
  exact sound_ideal m c t

/-- What the launch hands the region is the invariant before the first point, -/
theorem hin (c : Dev nD) : Pipeline.ΦA spec0 c ⊢ (dats m 0 c).Φ 0 := Idealize.SL.BI.Entails.refl _

/-- and after the last point the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (19 + 1) from rfl, PhiS_succ, PhiA_eq]
  iintro ⟨HS, Hg⟩
  isplitl [HS]
  · iexists _; iexact HS
  iexact Hg

/-! ## The run, and the result array after it -/

set_option backward.isDefEq.respectTransparency.types false in
/-- Every weakly fair execution of the program terminates, and every final state has each array of the pipeline at
    what the proof data compute: the inputs as launched, the result overwritten block by block at each write-back. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- What the write-back at point `t` writes is block `t` of the specification. -/
theorem flushed_eq (c : Dev nD) (t : Fin cfg0.N) :
    (dats m 0 c).flushed 3 t = ((cfg0.win 3).blk t).view.read (Elt Ideal) (spec m c) := by
  show (cfg0.win 3).cut (grid0.coords t) ((dats m 0 c).after 3 t) = _
  rw [after3]
  exact win0_3.cut_fill _ _ _

/-- The 20 row blocks cover the result array, so after the last write-back it holds the specification. -/
theorem final (c : Dev nD) : (dats m 0 c).arrAt 3 cfg0.N = spec m c :=
  (dats m 0 c).arrAt_eq_of_cover 3 (spec m c) (fun t _ => flushed_eq m c t) cover3

/-- The run, read: the result array at the specification, the three arguments unchanged. -/
theorem run : θ_run defs (onTc (τ := τ) (main (F := Ideal))) ⟨m, fun _ => 0, ρ⟩ fun r => ∀ c : Dev nD,
      r.2.mem ((c.tc : Thread nD τ).loc main_v0) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.KernelIdeal.Hand

end
-- ==== Proof.lean ====
/-
  A graph-convolution layer, out = max(adj · (x · W), 0), for x of 10000 × 128, a dense adj of 10000 × 10000 and W of
  128 × 128: the kernel against its reference, over the extended reals.

  The reference forms the projection x · W, multiplies the adjacency by it and clamps below at zero. The kernel walks the
  adjacency in 20 blocks of 512 rows (the last has 272 rows inside the array). At the first block it forms the same
  projection once, into a scratch it keeps for the whole walk; at every block it multiplies the block by the scratch and
  clamps. Over the extended reals a narrowing of the float format is the identity and a matrix product into a zero
  accumulator is the plain finite sum, so entry (r, j) of block t is max(∑ₖ adj(512 t + r, k) · (x · W)(k, j), 0): the
  reference's entry at row 512 t + r, with the same grouping of the two products — no law beyond reading both sums at
  an index is used, and the inputs' finiteness is not needed. The blocks cover the rows, so the two results are one
  function of the arguments (`Cert.KernelIdeal.Hand.spec`).

  The frames: the word-level kernel runs to the end from any buffer contents, its inputs' arrays never written
  (`Cert.Kernel.Hand.frame`); the idealized kernel's run names every array after it (`Cert.KernelIdeal.Hand.run`); the
  reference is a straight line of host operations, read back operation by operation. The idealization rewrote nothing, so
  there is nothing to preserve.
-/
import proofs.«137040_g2765958939316_cont_sun_m_1038_7_alg».proof.Defs
import proofs.«137040_g2765958939316_cont_sun_m_1038_7_alg».proof.Proof.Gen.Kernel
import proofs.«137040_g2765958939316_cont_sun_m_1038_7_alg».proof.Proof.Gen.KernelIdeal
import proofs.«137040_g2765958939316_cont_sun_m_1038_7_alg».proof.Proof.Gen.ReferenceIdeal
import proofs.«137040_g2765958939316_cont_sun_m_1038_7_alg».proof.Proof.Gen.Pre_finite_inputs
import proofs.«137040_g2765958939316_cont_sun_m_1038_7_alg».proof.Proof.Gen.ReferenceIdeal.Run
import proofs.«137040_g2765958939316_cont_sun_m_1038_7_alg».proof.Proof.Gen.ReferenceIdeal.Read
import proofs.«137040_g2765958939316_cont_sun_m_1038_7_alg».proof.Proof.FrameK
import proofs.«137040_g2765958939316_cont_sun_m_1038_7_alg».proof.Proof.ValueKI
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_k : Cert.frame_Kernel := fun m ρ _ => Cert.Kernel.Hand.frame (F := Bits) m ρ

/-- So does the idealized kernel: its run with the result dropped. -/
theorem frame_ki : Cert.frame_KernelIdeal := fun m ρ _ =>
  (θ_run Cert.KernelIdeal.defs _ _).mono (fun _ h c => (h c).2) (Cert.KernelIdeal.Hand.run m ρ)

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the result at max(adj · (x · W), 0): the
    kernel block by block, the reference as the composition of its operations, which is that function by definition. -/
theorem algebraic : Cert.algebraic_KernelIdeal_ReferenceIdeal := by
  intro m ρ m' ρ' _ hagree
  refine ⟨fun c => Cert.KernelIdeal.Hand.spec m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Read.val_main_v2_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
